-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x2048 : Shape := ⟨2, ![131072, 2048]⟩
abbrev S_ : Shape := ⟨0, ![]⟩

class Facts : Prop where
  bcast_S_S131072x2048 : S_.BroadcastsInDim S131072x2048 (![] : Fin 0 → Fin S131072x2048.rank)
  reducesTo_S131072x2048_S_d0_1 : S131072x2048.ReducesTo [0, 1] S_
  h_S_ : 0 < S_.numel

variable [Facts]

def fn {F : FTy → Type} [FloatOps F] (main_arg0 : FVec F S131072x2048 .f32) : IVec S_ 1 :=
  let main_v0 : FVec F S131072x2048 .f32 := Host.absf main_arg0
  let main_cst : FVec F S_ .f32 := constant S_ .f32 0x7F800000#32
  let main_v1 : FVec F S131072x2048 .f32 := broadcastInDim S131072x2048 ![] bcast_S_S131072x2048 main_cst
  let main_v2 : IVec S131072x2048 1 := cmpf .olt main_v0 main_v1
  let main_c : IVec S_ 1 := constantI S_ 1 1#1
  let main_v3 : IVec S_ 1 := (fun x v => Host.reduce IntOp.andi x v reducesTo_S131072x2048_S_d0_1 h_S_) main_v2 main_c
  main_v3
-- ==== Kernel.lean ====
abbrev S131072x2048 : Shape := ⟨2, ![131072, 2048]⟩
abbrev S131072x1 : Shape := ⟨2, ![131072, 1]⟩
abbrev S4096x128 : Shape := ⟨2, ![4096, 128]⟩
abbrev S4096x1 : Shape := ⟨2, ![4096, 1]⟩

abbrev nBuf : Space → Nat
  | .hbm => 2
  | .vmem => 4
  | .smem => 0
  | _ => 0

abbrev bufTy : (tb : Table) → Fin (tcTables nBuf tb) → BufTy
  | .hbm, ⟨0, _⟩ => ⟨S131072x2048, .f32⟩
  | .hbm, ⟨1, _⟩ => ⟨S131072x1, .f32⟩
  | .local _ .vmem, ⟨0, _⟩ => ⟨S4096x128, .f32⟩
  | .local _ .vmem, ⟨1, _⟩ => ⟨S4096x128, .f32⟩
  | .local _ .vmem, ⟨2, _⟩ => ⟨S4096x1, .f32⟩
  | .local _ .vmem, ⟨3, _⟩ => ⟨S4096x1, .f32⟩
  | _, _ => ⟨S131072x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4096x128_S4096x1_0_127 : ∀ a, (![0, 127] : Fin 2 → Nat) a + S4096x1.size a ≤ S4096x128.size a
  h_S4096x1 : 0 < S4096x1.numel
  inb_S4096x128_S4096x1_0_126 : ∀ a, (![0, 126] : Fin 2 → Nat) a + S4096x1.size a ≤ S4096x128.size a
  inb_S4096x1_S4096x1_0_0 : ∀ a, (![0, 0] : Fin 2 → Nat) a + S4096x1.size a ≤ S4096x1.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x2048.size a
  hwx0_0 : ∀ i : grid0.Coords, EltTy.bits .f32 = 32 ∨ (Rect.block (s := S131072x2048) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S131072x1.size a
  hwx0_1 : ∀ i : grid0.Coords, EltTy.bits .f32 = 32 ∨ (Rect.block (s := S131072x1) S4096x1.size (cc0_transform_1 i) (hinb0_1 i)).WholeWords (EltTy.packing .f32)

variable [Facts₀]

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S131072x2048 : Shape := ⟨2, ![131072, 2048]⟩
abbrev S131072x1 : Shape := ⟨2, ![131072, 1]⟩
abbrev S131072 : Shape := ⟨1, ![131072]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S131072x2048, .f32⟩
  | .hbm, ⟨1, _⟩ => ⟨S131072x1, .f32⟩
  | .hbm, ⟨2, _⟩ => ⟨S131072, .f32⟩
  | .hbm, ⟨3, _⟩ => ⟨S131072x1, .f32⟩
  | .hbm, ⟨4, _⟩ => ⟨S131072, .f32⟩
  | .hbm, ⟨5, _⟩ => ⟨S_, .f32⟩
  | .hbm, ⟨6, _⟩ => ⟨S131072, .f32⟩
  | .hbm, ⟨7, _⟩ => ⟨S131072, .f32⟩
  | .hbm, ⟨8, _⟩ => ⟨S131072, .f32⟩
  | .hbm, ⟨9, _⟩ => ⟨S131072x1, .f32⟩
  | _, _ => ⟨S131072x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]

class Facts₀ : Prop where
  slices_S131072x2048_S131072x1_0_2047 : S131072x2048.Slices ![0, 2047] S131072x1
  shapeCasts_S131072x1_S131072 : S131072x1.ShapeCasts S131072
  slices_S131072x2048_S131072x1_0_2046 : S131072x2048.Slices ![0, 2046] S131072x1
  bcast_S_S131072 : S_.BroadcastsInDim S131072 (![] : Fin 0 → Fin S131072.rank)
  bcast_S131072_S131072x1_0 : S131072.BroadcastsInDim S131072x1 (![0] : Fin 1 → Fin S131072x1.rank)

variable [Facts₀]

class Facts : Prop extends Facts₀ where

variable [Facts]
-- ==== Proof.Extrapolation.lean ====
/-
  Linear extrapolation one step past the end of each row.

  A row `v` of length 2048 is read as samples of a function at `t = 0, 1, …, 2047`. The straight line through its last
  two samples, `(2046, v 2046)` and `(2047, v 2047)`, takes at `t = 2048` the value
  `v 2047 + (v 2047 - v 2046)`, which both programs compute in the arrangement `2 · v 2047 - v 2046`: one product
  with the constant two (the word `0x40000000`), then one difference. The result is a column: entry `(r, 0)` depends on
  row `r` of the argument only, and of that row on columns 2047 and 2046 only.

  The function is stated for any float instance: it names the two operations and the one constant, and assumes no
  law of them, so it reads the same on words and on extended reals.
-/
import Idealize.ShloMosaic.Lib.ValueIdx

noncomputable section

namespace Cert.Extrapolation

open Idealize.ShloMosaic Idealize.ShloMosaic.ValueIdx

variable {F : FTy → Type} [FloatOps F]

/-- The last column of a 2048-column matrix, and the one before it. -/
abbrev lastCol : Fin 2048 := ⟨2047, by decide⟩
abbrev prevCol : Fin 2048 := ⟨2046, by decide⟩

/-- `extrapolate x (r, 0) = 2 · x (r, 2047) - x (r, 2046)`: the line through the row's last two entries, one step on. -/
def extrapolate (x : Vec F ⟨2, ![131072, 2048]⟩ .f32) : Vec F ⟨2, ![131072, 1]⟩ .f32 := fun i =>
  FloatOps.subf (FloatOps.mulf (FloatOps.ofBits .f32 0x40000000#32) (x (ix2 (i 0) lastCol))) (x (ix2 (i 0) prevCol))

end Cert.Extrapolation

end
-- ==== Proof.KernelValue.lean ====
/-
  The kernel computes the extrapolation.

  The grid has 32 points. At point `t` the input window holds block `(t, 15)` of the matrix in tiles of
  [4096, 128]: rows `4096 t … 4096 t + 4095`, columns `1920 … 2047`; the output window holds block `(t, 0)` of
  the column in tiles of [4096, 1]: the same rows. The body reads column 127 of its input block — entry `(y, 127)`
  of the block is entry `(4096 t + y, 15 · 128 + 127) = (4096 t + y, 2047)` of the matrix — and column 126, which is
  column 2046 of the matrix, and stores `2 · last - prev` over the whole output block. So what point `t` writes
  back is block `t` of the extrapolation of the matrix. The 32 blocks tile the column (row `r` lies in block
  `r / 4096`), hence after the run the result array is the extrapolation.
-/
import proofs.«116543_j14851996909739_1_alg».proof.Proof.Gen.KernelIdeal.Value
import proofs.«116543_j14851996909739_1_alg».proof.Proof.Extrapolation
import Idealize.ShloMosaic.Lib.Pipeline.Value

noncomputable section

namespace Cert.KernelIdeal.Extrap

open Cert.KernelIdeal Cert.KernelIdeal.Gen Cert.KernelIdeal.Value Cert.Extrapolation
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

theorem origin : (![0, 0] : Fin 2 → Nat) = fun _ => 0 := funext fun a => by fin_cases a <;> rfl

/-- The block indices over the grid: the input block is `(t, 15)` where the output block is `(t, 0)`. -/
theorem block_index : ∀ t : Fin cfg0.N, win0_0.index t (0 : Fin 2) = win0_1.index t (0 : Fin 2)
    ∧ win0_0.index t (1 : Fin 2) = 15
    ∧ win0_1.index t (1 : Fin 2) = 0
    ∧ win0_1.index t (0 : Fin 2) ≤ 31 :=
  (by decide +kernel : ∀ t : Fin grid0.N, _)

/-- Every one of the 32 row blocks of the column is some point's. -/
theorem block_onto : ∀ q : Fin 32, ∃ t : Fin cfg0.N, win0_1.index t = ![q.val, 0] :=
  (by decide +kernel : ∀ q : Fin 32, ∃ t : Fin grid0.N, win0_1.index t = ![q.val, 0])

/-- What point `t` writes back is block `t` of the extrapolation of the matrix as the region finds it. -/
theorem flushed_eq (c : Dev nD) (t : Fin cfg0.N) :
    (dats m 0 c).flushed 1 t = ((cfg0.win 1).blk t).view.read (Elt F) (extrapolate (V m c main_arg0)) := by
  rw [flushed1]
  unfold out0_1
  rw [View.canon_unit_zero origin]
  obtain ⟨e0, e1, e2, e3⟩ := block_index t
  funext j
  show FloatOps.subf (FloatOps.mulf (FloatOps.ofBits .f32 0x40000000#32)
        (V m c main_arg0 (((cfg0.win 0).blk t).view.emb (r0_0.idx j))))
      (V m c main_arg0 (((cfg0.win 0).blk t).view.emb (r0_1.idx j)))
    = extrapolate (V m c main_arg0) (((cfg0.win 1).blk t).view.emb j)
  have hj : (j 1).val < 1 := (j 1).isLt
  have hlast : ((cfg0.win 0).blk t).view.emb (r0_0.idx j) = ix2 ((((cfg0.win 1).blk t).view.emb j) 0) lastCol := by
    funext a; apply Fin.ext
    match a with
    | ⟨0, _⟩ => show win0_0.index t (0 : Fin 2) * 4096 + 1 * (0 + 1 * (j 0).val) = win0_1.index t (0 : Fin 2) * 4096 + 1 * (j 0).val; omega
    | ⟨1, _⟩ => show win0_0.index t (1 : Fin 2) * 128 + 1 * (127 + 1 * (j 1).val) = 2047; omega
  have hprev : ((cfg0.win 0).blk t).view.emb (r0_1.idx j) = ix2 ((((cfg0.win 1).blk t).view.emb j) 0) prevCol := by
    funext a; apply Fin.ext
    match a with
    | ⟨0, _⟩ => show win0_0.index t (0 : Fin 2) * 4096 + 1 * (0 + 1 * (j 0).val) = win0_1.index t (0 : Fin 2) * 4096 + 1 * (j 0).val; omega
    | ⟨1, _⟩ => show win0_0.index t (1 : Fin 2) * 128 + 1 * (126 + 1 * (j 1).val) = 2046; omega
  rw [hlast, hprev]
  rfl

/-- An index of the column lies in point `t`'s output block iff, on each axis, it lies in the block's range. -/
theorem mem_block (t : Fin cfg0.N) (i : S131072x1.Idx) :
    i ∈ ((cfg0.win 1).blk t).view.set ↔ ∀ a : Fin 2, win0_1.index t a * S4096x1.size a ≤ (i a).val
      ∧ (i a).val < win0_1.index t a * S4096x1.size a + S4096x1.size a := by
  show i ∈ ((View.whole main_v0).slice (win0_1.rect t)).set ↔ _
  rw [View.set_slice_whole, Rect.mem_set_unit]
  exact Iff.rfl

/-- The output blocks cover the column: row `r` lies in the block of the point whose block index is `r / 4096`. -/
theorem covered (i : S131072x1.Idx) :
    ∃ t : Fin cfg0.N, (cfg0.win 1).flush t = true ∧ i ∈ ((cfg0.win 1).blk t).view.set := by
  have hi0 : (i 0).val < 131072 := (i 0).isLt
  have hi1 : (i 1).val < 1 := (i 1).isLt
  obtain ⟨t, ht⟩ := block_onto ⟨(i 0).val / 4096, by omega⟩
  have q0 : win0_1.index t (0 : Fin 2) = (i 0).val / 4096 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 4096 ≤ (i 0).val ∧ (i 0).val < win0_1.index t (0 : Fin 2) * 4096 + 4096; omega
  | ⟨1, _⟩ => show win0_1.index t (1 : Fin 2) * 1 ≤ (i 1).val ∧ (i 1).val < win0_1.index t (1 : Fin 2) * 1 + 1; omega

/-- After the run the result array is the extrapolation of the argument. -/
theorem final (c : Dev nD) : (dats m 0 c).arrAt 1 cfg0.N = extrapolate (m ((c : Thread nD τ).loc main_arg0)) :=
  (dats m 0 c).arrAt_eq_of_cover 1 (extrapolate (V m c main_arg0)) (fun t _ => flushed_eq m c t) covered

/-- The kernel's run: it terminates with the result array at the extrapolation of the argument, the argument unchanged. -/
theorem run : θ_run defs (onTc (τ := τ) (main (F := F))) ⟨m, fun _ => 0, ρ⟩ fun r => ∀ c : Dev nD,
      r.2.mem ((c : Thread nD τ).loc main_v0) = extrapolate (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Extrap

end
-- ==== Proof.ReferenceValue.lean ====
/-
  The reference computes the extrapolation.

  The reference slices columns 2047 and 2046 out of the matrix as two [131072, 1] columns, flattens each to a
  vector of length 131072, forms `2 · last - prev` entry by entry with the constant two broadcast along the vector,
  and lays the vector out again as a column. Read at entry `(r, 0)`: the column's entry is the vector's entry `r`,
  the flattening of a one-column matrix sends entry `r` to `(r / 1, 0) = (r, 0)`, and the slice at offset 2047
  (or 2046) sends `(r, 0)` to `(r, 2047 + 0)` (or `(r, 2046 + 0)`). So the two operands are `x (r, 2047)` and
  `x (r, 2046)`, and the operations on them are the specification's, in its order.
-/
import proofs.«116543_j14851996909739_1_alg».proof.Proof.Gen.ReferenceIdeal.Read
import proofs.«116543_j14851996909739_1_alg».proof.Proof.Extrapolation

noncomputable section

namespace Cert.ReferenceIdeal.Extrap

open Cert.ReferenceIdeal Cert.ReferenceIdeal.Read Cert.Extrapolation
open Idealize.ShloMosaic Idealize.ShloMosaic.ValueIdx

variable {F : FTy → Type} [FloatOps F]

/-- Through the column layout, the flattening and the slice at 2047, entry `(r, 0)` of the result reads the matrix at `(r, 2047)`. -/
theorem last_index (i : S131072x1.Idx) : idx_main_v0 (idx_main_v1 (idx_main_v7 i)) = ix2 (i 0) lastCol :=
  funext fun a => Fin.ext (by
    match a with
    | ⟨0, _⟩ => exact Nat.div_one _
    | ⟨1, _⟩ => rfl)

/-- Likewise through the slice at 2046 it reads the matrix at `(r, 2046)`. -/
theorem prev_index (i : S131072x1.Idx) : idx_main_v2 (idx_main_v3 (idx_main_v7 i)) = ix2 (i 0) prevCol :=
  funext fun a => Fin.ext (by
    match a with
    | ⟨0, _⟩ => exact Nat.div_one _
    | ⟨1, _⟩ => rfl)

/-- The reference's last stage is the extrapolation of its argument. -/
theorem result_eq (x : Vec F S131072x2048 .f32) : val_main_v7 (F := F) x = extrapolate x := by
  funext i
  rw [val_main_v7_apply, val_main_v6_apply, val_main_v5_apply, val_main_v4_apply, val_main_cst_apply,
    val_main_v1_apply, val_main_v0_apply, val_main_v3_apply, val_main_v2_apply, last_index, prev_index]
  rfl

end Cert.ReferenceIdeal.Extrap

end
-- ==== Proof.lean ====
/-
  The certificate: a kernel that extrapolates each row of a [131072, 2048] matrix one step past its end,
  `out (r, 0) = 2 · x (r, 2047) - x (r, 2046)`, against the reference that slices the last two columns and
  forms the same expression.

  Both programs are the one function `Cert.Extrapolation.extrapolate` of the argument, with the same operations
  (a product with the constant two, then a difference) in the same order on the same two entries of each row. The
  kernel reaches those entries through the last 128-column tile of the row block at each of its 32 grid points
  (Proof/KernelValue.lean); the reference through two slices, two flattenings and a final column layout
  (Proof/ReferenceValue.lean). No law of arithmetic joins the two sides — the terms agree entry by entry — so the
  precondition (finite inputs) is never opened, and the idealization rewrote nothing (`preserves` is `True`).

  The three frames are the generated ones: the kernel's at both instances, and the reference's run with its
  result dropped.
-/
import proofs.«116543_j14851996909739_1_alg».proof.Defs
import proofs.«116543_j14851996909739_1_alg».proof.Proof.Gen.Kernel
import proofs.«116543_j14851996909739_1_alg».proof.Proof.Gen.Kernel.Skeleton
import proofs.«116543_j14851996909739_1_alg».proof.Proof.Gen.Kernel.Launch
import proofs.«116543_j14851996909739_1_alg».proof.Proof.Gen.Kernel.Points
import proofs.«116543_j14851996909739_1_alg».proof.Proof.Gen.Kernel.Frame
import proofs.«116543_j14851996909739_1_alg».proof.Proof.Gen.KernelIdeal
import proofs.«116543_j14851996909739_1_alg».proof.Proof.Gen.KernelIdeal.Skeleton
import proofs.«116543_j14851996909739_1_alg».proof.Proof.Gen.KernelIdeal.Launch
import proofs.«116543_j14851996909739_1_alg».proof.Proof.Gen.KernelIdeal.Points
import proofs.«116543_j14851996909739_1_alg».proof.Proof.Gen.KernelIdeal.Frame
import proofs.«116543_j14851996909739_1_alg».proof.Proof.Gen.ReferenceIdeal
import proofs.«116543_j14851996909739_1_alg».proof.Proof.Gen.Pre_finite_inputs
import proofs.«116543_j14851996909739_1_alg».proof.Proof.Gen.KernelIdeal.Value
import proofs.«116543_j14851996909739_1_alg».proof.Proof.Gen.ReferenceIdeal.Run
import proofs.«116543_j14851996909739_1_alg».proof.Proof.Gen.ReferenceIdeal.Read
import proofs.«116543_j14851996909739_1_alg».proof.Proof.Extrapolation
import proofs.«116543_j14851996909739_1_alg».proof.Proof.KernelValue
import proofs.«116543_j14851996909739_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves the matrix as it was. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves the matrix as it was: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals, from memories that agree on the matrix, both programs end with the result column at
    the extrapolation of the matrix: the kernel block by block over its grid, the reference through its slices. -/
theorem algebraic : Cert.algebraic_KernelIdeal_ReferenceIdeal := by
  intro m ρ m' ρ' _ hagree
  refine ⟨fun c => Cert.Extrapolation.extrapolate (m ((c.tc : Thread Cert.KernelIdeal.nD Cert.KernelIdeal.τ).loc Cert.KernelIdeal.main_arg0)),
    Cert.KernelIdeal.Extrap.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.Extrap.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
